-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S8192x8192 : Shape := ⟨2, ![8192, 8192]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x8192, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  reduces_S512x1024_S512 : S512x1024.Reduces [1] S512
  shapeCasts_S512_S512x1 : S512.ShapeCasts S512x1
  reduces_S1024x1024_S1024 : S1024x1024.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S512x1_S512x1024 : S512x1.Broadcasts S512x1024
  broadcasts_S1x1024_S512x1024 : S1x1024.Broadcasts S512x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x8192.size a
  hwx0_2 : ∀ i : grid0.Coords, EltTy.bits .f32 = 32 ∨ (Rect.block (s := S8192x8192) S512x1024.size (cc0_transform_2 i) (hinb0_2 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x1024_S8192x1024_S8192x8192_1_1_0_0_n_n_wf : DotDims.WF S8192x1024 S8192x1024 S8192x8192 [1] [1] [0] [0] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.Spec.lean ====
/-
  The table of Euclidean distances between two families of points, as one function of the two coordinate tables.

  The rows of `x` and of `y` (8192 rows of 1024 coordinates each) are points of a 1024-dimensional space. Entry `(r, s)`
  of the table is computed from three sums over the coordinate `k`: the squared length of `x_r`, the squared length of
  `y_s`, and the inner product of the two, combined by the polarization identity
  `‖x_r − y_s‖² = ‖x_r‖² + ‖y_s‖² − 2 ⟨x_r, y_s⟩`, clamped below at zero and square-rooted — all on the extended reals,
  with the exact operations. Nothing here is rearranged: the expression is taken with the grouping
  `(‖x_r‖² + ‖y_s‖²) − 2 · ⟨x_r, y_s⟩` that both programs use, so no law that could fail at an infinity is needed.
-/
import Idealize.ShloMosaic.PureOps.Ideal
import Idealize.ShloMosaic.Lib.ValueIdx

noncomputable section

namespace Cert.Dist

open Idealize.ShloMosaic Idealize.ShloMosaic.ValueIdx

/-- One entry of the table from its three sums: `√ max ((sx + sy) − 2 · ip, 0)`, the constants `2` and `0` kept as
    their binary32 words (the same words on both sides: never evaluated). -/
def entry (sx sy ip : EReal) : EReal :=
  Ideal.sqrt (max (sx + sy - Ideal.ofBits .f32 0x40000000#32 * ip) (Ideal.ofBits .f32 0x00000000#32))

/-- The distance between row `r` of `x` and row `s` of `y`. -/
def distAt (x y : (⟨2, ![8192, 1024]⟩ : Shape).Idx → EReal) (r s : Fin 8192) : EReal :=
  entry (∑ k : Fin 1024, x (ix2 r k) * x (ix2 r k)) (∑ k : Fin 1024, y (ix2 s k) * y (ix2 s k))
    (∑ k : Fin 1024, x (ix2 r k) * y (ix2 s k))

/-- The whole 8192 × 8192 table. -/
def dist (x y : (⟨2, ![8192, 1024]⟩ : Shape).Idx → EReal) : (⟨2, ![8192, 8192]⟩ : Shape).Idx → EReal :=
  fun i => distAt x y (i 0) (i 1)

end Cert.Dist

end
-- ==== Proof.RefDist.lean ====
/-
  The reference computes the distance table.

  The reference forms, for whole arrays, the row sums of squares of `x` (kept as a column) and of `y` (kept as a row),
  broadcasts both over the 8192 × 8192 table, subtracts twice the product `x · yᵀ`, clamps at zero and takes the root.
  Read at an index `(r, s)` every broadcast just selects the row `r` or `s` it came from, each row sum is the zero
  initial value plus the finite sum over the coordinate, and the product's entry is the inner product of the two rows:
  exactly `Cert.Dist.distAt x y r s`.
-/
import proofs.«151553_j46308337386063_1_alg».proof.Proof.Gen.ReferenceIdeal.Read
import proofs.«151553_j46308337386063_1_alg».proof.Proof.Spec

noncomputable section

namespace Cert.ReferenceIdeal.RefDist

open Cert.ReferenceIdeal Cert.ReferenceIdeal.Gen Cert.ReferenceIdeal.Read
open Idealize.ShloMosaic Idealize.ShloMosaic.ValueIdx

/-- Through the two broadcasts, the row of `x` whose squares are summed for entry `i` is row `i 0`. -/
theorem xrow (i : S8192x8192.Idx) (k : Fin 1024) :
    idx_main_v1 (idx_main_v2 (idx_main_v7 i)) k = ix2 (n0 := 8192) (n1 := 1024) (i 0) k :=
  funext fun a => Fin.ext (by match a with | ⟨0, _⟩ => rfl | ⟨1, _⟩ => rfl)

/-- Through the two broadcasts, the row of `y` whose squares are summed for entry `i` is row `i 1`. -/
theorem yrow (i : S8192x8192.Idx) (k : Fin 1024) :
    idx_main_v4 (idx_main_v5 (idx_main_v8 i)) k = ix2 (n0 := 8192) (n1 := 1024) (i 1) k :=
  funext fun a => Fin.ext (by match a with | ⟨0, _⟩ => rfl | ⟨1, _⟩ => rfl)

/-- The left factor of the product's entry `i` runs along row `i 0` of `x`. -/
theorem lrow (i : S8192x8192.Idx) (k : Fin 1024) : lidx_main_v6 i k = ix2 (n0 := 8192) (n1 := 1024) (i 0) k :=
  funext fun a => Fin.ext (by match a with | ⟨0, _⟩ => rfl | ⟨1, _⟩ => rfl)

/-- The right factor of the product's entry `i` runs along row `i 1` of `y`. -/
theorem rrow (i : S8192x8192.Idx) (k : Fin 1024) : ridx_main_v6 i k = ix2 (n0 := 8192) (n1 := 1024) (i 1) k :=
  funext fun a => Fin.ext (by match a with | ⟨0, _⟩ => rfl | ⟨1, _⟩ => rfl)

/-- The reference's result, on the extended reals, is the distance table of its two arguments. -/
theorem ref_eq (x0 x1 : (⟨S8192x1024, .f32⟩ : BufTy).Contents (Elt Ideal)) :
    val_main_v15 (F := Ideal) x0 x1 = Cert.Dist.dist x0 x1 := by
  funext i
  rw [val_main_v15_apply, val_main_v14_apply, val_main_v12_apply, val_main_v9_apply, val_main_v11_apply,
    val_main_v7_apply, val_main_v8_apply, val_main_v2_apply, val_main_v5_apply, val_main_v1_apply, val_main_v4_apply,
    val_main_v6_apply, val_main_v10_apply, val_main_v13_apply]
  simp only [val_main_v0_apply, val_main_v3_apply, val_main_cst_apply, val_main_cst_0_apply, val_main_cst_1_apply,
    val_main_cst_2_apply, xrow, yrow, lrow, rrow, Ideal.hostUnary_sqrt_def, Ideal.maximumf_def, Ideal.subf_def,
    Ideal.addf_def, Ideal.mulf_def, Ideal.ofBits_def, Ideal.ofBits_zero_f32, zero_add,
    Cert.Dist.dist, Cert.Dist.distAt, Cert.Dist.entry]

end Cert.ReferenceIdeal.RefDist

end
-- ==== Proof.LibColumn.lean ====
/-
  Column-shaped values read at an index given by coordinates, and a lane sum read as a finite sum.

  A row-wise reduction that keeps its axis (`sum(…, axis=1, keepdims=True)`) leaves an `[a, 1]` column. Three re-layings
  of such a column occur whenever it meets a full `[a, b]` tile: the cast of the `[a]` vector of sums to the column, the
  column broadcast along the rows of the tile, and (for the other operand's sums) the column transposed to a `[1, b]` row,
  which the library's `transpose_ix2_apply` and `broadcastTo_1b_ab_apply` already read. Each lemma states what the
  re-laid value holds at `(p, c)` in terms of the original vector, for indices built by `ix1` / `ix2`, so that it applies
  to a printed operation by unification. Generic in the extents and in the element type.
-/
import Idealize.ShloMosaic.Lib.ValueLayout
import Idealize.ShloMosaic.PureOps.Ideal.Laws

namespace Cert.Lib.Column

open Idealize.ShloMosaic Idealize.ShloMosaic.ValueIdx

variable {α : Type}

/-- An `[a]` vector cast to the column `[a, 1]` reads, at `(i, u)`, the vector's entry `i`, whatever the unit
    coordinate `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`: every column of the
    result is the operand. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, d]` block (a float `multi_reduction <add>` over axis 1 from the neutral
    accumulator), read on the extended reals at row `i`, is the finite sum of the row's `d` entries. -/
theorem rowSum_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin d, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Column
-- ==== Proof.Tile.lean ====
/-
  One tile of the kernel: what the body computes from a 512 × 1024 block of `x` and a 1024 × 1024 block of `y`.

  The body forms the row sums of squares of both blocks, lays the first out as a column and the second (transposed) as a
  row, broadcasts both over the 512 × 1024 tile, multiplies the two blocks `x_blk · y_blkᵀ` (after a change of float
  format, which on the extended reals is the identity, and into a zero accumulator), and combines:
  `√ max ((‖x_p‖² + ‖y_q‖²) − 2 ⟨x_p, y_q⟩, 0)` at position `(p, q)` of the tile — `Cert.Dist.entry` of the three sums over
  the coordinate, taken along row `p` of the first block and row `q` of the second.
-/
import proofs.«151553_j46308337386063_1_alg».proof.Proof.Gen.KernelIdeal.Skeleton
import proofs.«151553_j46308337386063_1_alg».proof.Proof.Spec
import proofs.«151553_j46308337386063_1_alg».proof.Proof.LibColumn
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen
open Idealize.ShloMosaic Idealize.ShloMosaic.ValueIdx Cert.Lib.Column

/-! ## The tile's product: both blocks are contracted along their second axis -/

theorem lhs_tile_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_tile_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_tile_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_tile_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product of the two blocks into a zero accumulator, at `(p, q)`, is the inner product of row `p` of the left
    block with row `q` of the right block. -/
theorem tileDot_apply (l : FVec Ideal S512x1024 .bf16) (r : FVec Ideal S1024x1024 .bf16) (p : Fin 512) (q : Fin 1024) :
    matmul dot_S512x1024_S1024x1024_S512x1024_1_1_0_0_n_n none l r (constant S512x1024 .f32 0x00000000#32) (ix2 p q)
      = ∑ k : Fin 1024, l (ix2 p k) * r (ix2 q k) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p q) ((contrEquiv1 dot_S512x1024_S1024x1024_S512x1024_1_1_0_0_n_n 1024 rfl rfl).symm k) = ix2 p k := funext fun a => Fin.ext (by
    match a with
    | ⟨0, _⟩ => exact lhs_tile_0 _ _
    | ⟨1, _⟩ => exact (lhs_tile_1 _ _).trans hk)
  have er : dot_S512x1024_S1024x1024_S512x1024_1_1_0_0_n_n.rhsIdx (ix2 p q) ((contrEquiv1 dot_S512x1024_S1024x1024_S512x1024_1_1_0_0_n_n 1024 rfl rfl).symm k) = ix2 q k := funext fun a => Fin.ext (by
    match a with
    | ⟨0, _⟩ => exact rhs_tile_0 _ _
    | ⟨1, _⟩ => exact (rhs_tile_1 _ _).trans hk)
  rw [el, er]

/-! ## The two squared lengths, as the tile sees them -/

/-- The left block's row sums of squares, kept as a column and broadcast along the tile's rows: at `(p, q)` the squared
    length of the block's row `p`. -/
theorem colSq_apply (x0 : FVec Ideal S512x1024 .f32) (p : Fin 512) (q : Fin 1024) :
    broadcastTo S512x1024 (shapeCast S512x1 (multiReduction .add [1] S512 (mulf x0 x0) 0x00000000#32 reduces_S512x1024_S512 (.inl rfl) rfl) shapeCasts_S512_S512x1) broadcasts_S512x1_S512x1024 (ix2 p q)
      = ∑ k : Fin 1024, x0 (ix2 p k) * x0 (ix2 p k) :=
  (broadcastTo_a1_ab_apply _ _ p q).trans ((shapeCast_a_a1_apply _ _ p 0).trans (rowSum_apply _ _ _ _ _ p))

/-- The right block's row sums of squares, kept as a column, transposed to a row and broadcast down the tile's columns: at
    `(p, q)` the squared length of the block's row `q`. -/
theorem rowSq_apply (x1 : FVec Ideal S1024x1024 .f32) (p : Fin 512) (q : Fin 1024) :
    broadcastTo S512x1024 (transpose S1x1024 [1, 0] (shapeCast S1024x1 (multiReduction .add [1] S1024 (mulf x1 x1) 0x00000000#32 reduces_S1024x1024_S1024 (.inl rfl) rfl) shapeCasts_S1024_S1024x1) transposes_S1024x1_p1_0_S1x1024) broadcasts_S1x1024_S512x1024 (ix2 p q)
      = ∑ k : Fin 1024, x1 (ix2 q k) * x1 (ix2 q k) :=
  (broadcastTo_1b_ab_apply _ _ p q).trans ((transpose_ix2_apply _ _ 0 q).trans
    ((shapeCast_a_a1_apply _ _ q 0).trans (rowSum_apply _ _ _ _ _ q)))

/-! ## The tile -/

/-- The body's stored value at `(p, q)` is the distance entry of the three sums along row `p` of the first block and row
    `q` of the second. -/
theorem pay_apply (x0 : FVec Ideal S512x1024 .f32) (x1 : FVec Ideal S1024x1024 .f32) (p : Fin 512) (q : Fin 1024) :
    k0_pay1 (F := Ideal) x0 x1 (ix2 p q)
      = Cert.Dist.entry (∑ k : Fin 1024, x0 (ix2 p k) * x0 (ix2 p k)) (∑ k : Fin 1024, x1 (ix2 q k) * x1 (ix2 q k))
          (∑ k : Fin 1024, x0 (ix2 p k) * x1 (ix2 q k)) := by
  unfold k0_pay1 Cert.Dist.entry
  exact congrArg Ideal.sqrt (congrArg₂ max (congrArg₂ (· - ·) (congrArg₂ (· + ·) (colSq_apply x0 p q) (rowSq_apply x1 p q))
    (congrArg (Ideal.ofBits .f32 0x40000000#32 * ·) (tileDot_apply _ _ p q))) rfl)

/-- The same, with the two blocks placed in their arrays: if row `p` of the first block is row `r` of `X` and row `q` of
    the second block is row `s` of `Y`, the tile's value at `(p, q)` is the distance between row `r` of `X` and row `s`
    of `Y`. -/
theorem tile_entry (X Y : (⟨2, ![8192, 1024]⟩ : Shape).Idx → EReal) (x0 : FVec Ideal S512x1024 .f32) (x1 : FVec Ideal S1024x1024 .f32)
    (r s : Fin 8192) (p : Fin 512) (q : Fin 1024)
    (h0 : ∀ k : Fin 1024, x0 (ix2 p k) = X (ix2 r k)) (h1 : ∀ k : Fin 1024, x1 (ix2 q k) = Y (ix2 s k)) :
    k0_pay1 (F := Ideal) x0 x1 (ix2 p q) = Cert.Dist.distAt X Y r s := by
  rw [pay_apply]
  unfold Cert.Dist.distAt
  simp only [h0, h1]

end Cert.KernelIdeal.Tile

end
-- ==== Proof.Table.lean ====
/-
  From tiles to the table: after the kernel's run its result array is the whole distance table.

  The grid has 16 × 8 points. Point `(a, b)` reads rows `512 a … 512 a + 511` of `x` and rows `1024 b … 1024 b + 1023` of
  `y` (whole rows: both blocks span all 1024 coordinates) and writes the 512 × 1024 tile at block `(a, b)` of the
  8192 × 8192 result. So the tile's entry `(p, q)` is the table's entry `(512 a + p, 1024 b + q)`, and its value is the
  distance between exactly those two rows (`Tile.tile_entry`). The 128 tiles cover the table — entry `(r, s)` lies in the
  tile of the point with `a = r / 512`, `b = s / 1024` — so the array written back tile by tile is the table.
-/
import proofs.«151553_j46308337386063_1_alg».proof.Proof.Gen.KernelIdeal.Value
import proofs.«151553_j46308337386063_1_alg».proof.Proof.Tile
import Idealize.ShloMosaic.Lib.Pipeline.Value

noncomputable section

namespace Cert.KernelIdeal.Table

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The three index maps over the grid: the `x` block moves with the tile's row block, the `y` block with the tile's
    column block, both at column block 0; the tile's block indices stay below 16 and 8. -/
theorem idx_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 15 ∧ win0_2.index t (1 : Fin 2) ≤ 7 :=
  (by decide +kernel : ∀ t : Fin grid0.N, _)

/-- Every tile of the 16 × 8 tiling is some point's. -/
theorem idx_onto : ∀ (q0 : Fin 16) (q1 : Fin 8), ∃ t : Fin cfg0.N, win0_2.index t = ![q0.val, q1.val] :=
  (by decide +kernel : ∀ (q0 : Fin 16) (q1 : Fin 8), ∃ t : Fin grid0.N, win0_2.index t = ![q0.val, q1.val])

/-- Row `p` of the `x` block at point `t` is row `512 a + p` of `x`, `a` the tile's row block. -/
theorem xblk_apply (c : Dev nD) (t : Fin cfg0.N) (p : Fin 512) (k : Fin 1024) (r : Fin 8192)
    (hr : r.val = win0_2.index t (0 : Fin 2) * 512 + p.val) :
    (iblk m c 0 t : Vec Ideal S512x1024 .f32) (ix2 p k) = (V m c main_arg0 : S8192x1024.Idx → Elt Ideal .f32) (ix2 r k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- Row `q` of the `y` block at point `t` is row `1024 b + q` of `y`, `b` the tile's column block. -/
theorem yblk_apply (c : Dev nD) (t : Fin cfg0.N) (q : Fin 1024) (k : Fin 1024) (s : Fin 8192)
    (hs : s.val = win0_2.index t (1 : Fin 2) * 1024 + q.val) :
    (iblk m c 1 t : Vec Ideal S1024x1024 .f32) (ix2 q k) = (V m c main_arg1 : S8192x1024.Idx → Elt Ideal .f32) (ix2 s k) := by
  obtain ⟨-, -, e2, e3, -⟩ := idx_facts t
  unfold iblk
  rw [View.read_apply]
  show V m c main_arg1 _ = V m c main_arg1 _
  congr 1
  funext a
  apply Fin.ext
  match a with
  | ⟨0, _⟩ => show win0_1.index t (0 : Fin 2) * 1024 + 1 * q.val = s.val; rw [e2, hs]; omega
  | ⟨1, _⟩ => show win0_1.index t (1 : Fin 2) * 1024 + 1 * k.val = k.val; rw [e3]; omega

/-- WHAT POINT `t` WRITES BACK is tile `t` of the distance table of the two argument arrays. -/
theorem flushed_eq (c : Dev nD) (t : Fin cfg0.N) :
    (dats m 0 c).flushed 2 t = ((cfg0.win 2).blk t).view.read (Elt Ideal) (Cert.Dist.dist (V m c main_arg0) (V m c main_arg1)) := by
  rw [Value.flushed2]
  unfold out0_2
  rw [View.canon_unit_zero hz]
  simp only [View.ld_unit_zero (S := S512x1024) hz, View.ld_unit_zero (S := S1024x1024) hz]
  obtain ⟨-, -, -, -, b0, b1⟩ := idx_facts t
  funext j
  obtain ⟨p, q, rfl⟩ : ∃ (p : Fin 512) (q : Fin 1024), j = ix2 p q := ⟨j 0, j 1, eq_ix2 j⟩
  have hr : win0_2.index t (0 : Fin 2) * 512 + p.val < 8192 := by have := p.isLt; omega
  have hs : win0_2.index t (1 : Fin 2) * 1024 + q.val < 8192 := by have := q.isLt; omega
  show k0_pay1 (F := Ideal) (iblk m c 0 t) (iblk m c 1 t) (ix2 p q)
    = Cert.Dist.dist (V m c main_arg0) (V m c main_arg1) (((cfg0.win 2).blk t).view.emb (ix2 p q))
  refine (Tile.tile_entry (V m c main_arg0) (V m c main_arg1) (iblk m c 0 t) (iblk m c 1 t) ⟨_, hr⟩ ⟨_, hs⟩ p q
    (fun k => xblk_apply m c t p k ⟨_, hr⟩ rfl) (fun k => yblk_apply m c t q k ⟨_, hs⟩ rfl)).trans ?_
  unfold Cert.Dist.dist
  congr 1
  · apply Fin.ext
    show win0_2.index t (0 : Fin 2) * 512 + p.val = win0_2.index t (0 : Fin 2) * 512 + 1 * p.val
    omega
  · apply Fin.ext
    show win0_2.index t (1 : Fin 2) * 1024 + q.val = win0_2.index t (1 : Fin 2) * 1024 + 1 * q.val
    omega

/-- An index of the table is in point `t`'s tile iff each coordinate is in the tile's range on its axis. -/
theorem mem_blk (t : Fin cfg0.N) (i : S8192x8192.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]
  exact Iff.rfl

/-- The tiles cover the table: entry `(r, s)` lies in the tile with row block `r / 512` and column block `s / 1024`. -/
theorem cover (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- THE ARRAY after the run is the distance table of the argument arrays. -/
theorem final (c : Dev nD) : (dats m 0 c).arrAt 2 cfg0.N = Cert.Dist.dist (V m c main_arg0) (V m c main_arg1) :=
  (dats m 0 c).arrAt_eq_of_cover 2 _ (fun t _ => flushed_eq m c t) cover

/-- The kernel's run, read: the result array ends at the distance table of the arguments, the arguments unchanged. -/
theorem run : θ_run defs (onTc (τ := τ) (main (F := Ideal))) ⟨m, fun _ => 0, ρ⟩ fun r => ∀ c : Dev nD,
      r.2.mem ((c : Thread nD τ).loc main_v0) = Cert.Dist.dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Table

end
-- ==== Proof.lean ====
/-
  The pairwise Euclidean distances between the rows of two 8192 × 1024 tables, tile by tile, against the whole-array
  formula.

  Both programs compute, for rows `x_r` and `y_s`, `√ max ((‖x_r‖² + ‖y_s‖²) − 2 ⟨x_r, y_s⟩, 0)` — the polarization
  identity for `‖x_r − y_s‖²`, clamped at zero before the root. The kernel does it on a 16 × 8 grid of 512 × 1024 tiles,
  each from a 512-row block of `x` and a 1024-row block of `y` (whole rows, so every sum over the coordinate is complete
  within one tile); the reference does it on whole arrays. On the extended reals, with exact operations and the change of
  float format before the kernel's product the identity, the two are the same expression with the same grouping and the
  same two constants, so no algebraic law is used and the finiteness of the inputs is never opened: the three sums of a
  table entry are sums over the same 1024 coordinates of the same rows.

  Proof/Spec.lean states the table as one function of the two arrays; Proof/RefDist.lean reads the reference's stages at
  an index and finds that function; Proof/Tile.lean reads the kernel body's stored value at a position of the tile
  (over Proof/LibColumn.lean: a column of row sums cast, transposed and broadcast, read at coordinates);
  Proof/Table.lean places each tile in the table and covers the table with the tiles. Here: the three frames, the empty
  ledger, and the two runs set side by side at the same function.
-/
import proofs.«151553_j46308337386063_1_alg».proof.Defs
import proofs.«151553_j46308337386063_1_alg».proof.Proof.Gen.Kernel
import proofs.«151553_j46308337386063_1_alg».proof.Proof.Gen.Kernel.Skeleton
import proofs.«151553_j46308337386063_1_alg».proof.Proof.Gen.Kernel.Launch
import proofs.«151553_j46308337386063_1_alg».proof.Proof.Gen.Kernel.Points
import proofs.«151553_j46308337386063_1_alg».proof.Proof.Gen.Kernel.Frame
import proofs.«151553_j46308337386063_1_alg».proof.Proof.Gen.KernelIdeal
import proofs.«151553_j46308337386063_1_alg».proof.Proof.Gen.KernelIdeal.Skeleton
import proofs.«151553_j46308337386063_1_alg».proof.Proof.Gen.KernelIdeal.Launch
import proofs.«151553_j46308337386063_1_alg».proof.Proof.Gen.KernelIdeal.Points
import proofs.«151553_j46308337386063_1_alg».proof.Proof.Gen.KernelIdeal.Frame
import proofs.«151553_j46308337386063_1_alg».proof.Proof.Gen.ReferenceIdeal
import proofs.«151553_j46308337386063_1_alg».proof.Proof.Gen.Pre_finite_inputs
import proofs.«151553_j46308337386063_1_alg».proof.Proof.Gen.KernelIdeal.Value
import proofs.«151553_j46308337386063_1_alg».proof.Proof.Gen.ReferenceIdeal.Run
import proofs.«151553_j46308337386063_1_alg».proof.Proof.Gen.ReferenceIdeal.Read
import proofs.«151553_j46308337386063_1_alg».proof.Proof.RefDist
import proofs.«151553_j46308337386063_1_alg».proof.Proof.Table
import Idealize.ShloMosaic.Adequacy
import Idealize.ShloMosaic.Init

noncomputable section

namespace Cert.Proof

open Idealize.ShloMosaic Idealize.ShloMosaic.TcCoe Idealize.SL.Sem

/-- The word-level kernel runs and leaves its arguments: the generated frame. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the extended reals: nothing to preserve. -/
theorem preserves : Cert.preserves_Kernel_KernelIdeal := trivial

/-- From arguments that agree, the kernel's result array ends at the distance table of its arguments (the tiles placed
    and covering) and the reference's at its composed stages, which read at an index are the same table. -/
theorem algebraic : Cert.algebraic_KernelIdeal_ReferenceIdeal := by
  intro m ρ m' ρ' _ hagree
  refine ⟨_, Cert.KernelIdeal.Table.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefDist.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
